-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts]

def fn {F : FTy → Type} [FloatOps F] (main_arg0 : FVec F S4096x16384 .f32) (main_arg1 : FVec F S4096x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  main_v8
-- ==== Kernel.lean ====
abbrev S4096x16384 : Shape := ⟨2, ![4096, 16384]⟩
abbrev S16384 : Shape := ⟨1, ![16384]⟩
abbrev S16384x1 : Shape := ⟨2, ![16384, 1]⟩
abbrev S14 : Shape := ⟨1, ![14]⟩
abbrev S_ : Shape := ⟨0, ![]⟩
abbrev S1x14 : Shape := ⟨2, ![1, 14]⟩
abbrev S16384x14 : Shape := ⟨2, ![16384, 14]⟩
abbrev S4096x14 : Shape := ⟨2, ![4096, 14]⟩
abbrev S512x4096 : Shape := ⟨2, ![512, 4096]⟩
abbrev S512x14 : Shape := ⟨2, ![512, 14]⟩

abbrev nBuf : Space → Nat
  | .hbm => 24
  | .vmem => 9
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S16384, .i32⟩
  | .hbm, ⟨3, _⟩ => ⟨S16384x1, .i32⟩
  | .hbm, ⟨4, _⟩ => ⟨S14, .i32⟩
  | .hbm, ⟨5, _⟩ => ⟨S_, .i32⟩
  | .hbm, ⟨6, _⟩ => ⟨S14, .i32⟩
  | .hbm, ⟨7, _⟩ => ⟨S14, .i32⟩
  | .hbm, ⟨8, _⟩ => ⟨S1x14, .i32⟩
  | .hbm, ⟨9, _⟩ => ⟨S16384x14, .i32⟩
  | .hbm, ⟨10, _⟩ => ⟨S16384x14, .i32⟩
  | .hbm, ⟨11, _⟩ => ⟨S16384x14, .i32⟩
  | .hbm, ⟨12, _⟩ => ⟨S_, .i32⟩
  | .hbm, ⟨13, _⟩ => ⟨S16384x14, .i32⟩
  | .hbm, ⟨14, _⟩ => ⟨S16384x14, .i32⟩
  | .hbm, ⟨15, _⟩ => ⟨S16384x14, .f32⟩
  | .hbm, ⟨16, _⟩ => ⟨S_, .f32⟩
  | .hbm, ⟨17, _⟩ => ⟨S16384x14, .f32⟩
  | .hbm, ⟨18, _⟩ => ⟨S16384x14, .f32⟩
  | .hbm, ⟨19, _⟩ => ⟨S_, .f32⟩
  | .hbm, ⟨20, _⟩ => ⟨S16384x14, .f32⟩
  | .hbm, ⟨21, _⟩ => ⟨S16384x14, .f32⟩
  | .hbm, ⟨22, _⟩ => ⟨S16384x14, .bf16⟩
  | .hbm, ⟨23, _⟩ => ⟨S4096x14, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S4096x14, .bf16⟩
  | .local _ .vmem, ⟨5, _⟩ => ⟨S4096x14, .bf16⟩
  | .local _ .vmem, ⟨6, _⟩ => ⟨S512x14, .f32⟩
  | .local _ .vmem, ⟨7, _⟩ => ⟨S512x14, .f32⟩
  | .local _ .vmem, ⟨8, _⟩ => ⟨S512x14, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x14 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x14 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S16384_S16384x1_0 : S16384.BroadcastsInDim S16384x1 (![0] : Fin 1 → Fin S16384x1.rank)
  bcast_S_S14 : S_.BroadcastsInDim S14 (![] : Fin 0 → Fin S14.rank)
  bcast_S14_S1x14_1 : S14.BroadcastsInDim S1x14 (![1] : Fin 1 → Fin S1x14.rank)
  bcast_S16384x1_S16384x14_0_1 : S16384x1.BroadcastsInDim S16384x14 (![0, 1] : Fin 2 → Fin S16384x14.rank)
  bcast_S1x14_S16384x14_0_1 : S1x14.BroadcastsInDim S16384x14 (![0, 1] : Fin 2 → Fin S16384x14.rank)
  bcast_S_S16384x14 : S_.BroadcastsInDim S16384x14 (![] : Fin 0 → Fin S16384x14.rank)
  bitsLt_bf16_f32 : FTy.bits .bf16 < FTy.bits .f32
  inb_S512x14_S512x14_0_0 : ∀ a, (![0, 0] : Fin 2 → Nat) a + S512x14.size a ≤ S512x14.size a
  h_S512x14 : 0 < S512x14.numel
  shapeCasts_S512x14_S512x14 : S512x14.ShapeCasts S512x14
  inb_S512x4096_S512x4096_0_0 : ∀ a, (![0, 0] : Fin 2 → Nat) a + S512x4096.size a ≤ S512x4096.size a
  h_S512x4096 : 0 < S512x4096.numel
  inb_S4096x14_S4096x14_0_0 : ∀ a, (![0, 0] : Fin 2 → Nat) a + S4096x14.size a ≤ S4096x14.size a
  h_S4096x14 : 0 < S4096x14.numel
  shapeCasts_S4096x14_S4096x14 : S4096x14.ShapeCasts S4096x14
  dot_S512x4096_S4096x14_S512x14_1_0_0_1_n_n_wf : DotDims.WF S512x4096 S4096x14 S512x14 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x16384.size a
  hwx0_0 : ∀ i : grid0.Coords, EltTy.bits .f32 = 32 ∨ (Rect.block (s := S4096x16384) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x16384.size a
  hwx0_1 : ∀ i : grid0.Coords, EltTy.bits .f32 = 32 ∨ (Rect.block (s := S4096x16384) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x14.size a ≤ S16384x14.size a
  hwx0_2 : ∀ i : grid0.Coords, EltTy.bits .bf16 = 32 ∨ (Rect.block (s := S16384x14) S4096x14.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x14.size a ≤ S4096x14.size a
  hwx0_3 : ∀ i : grid0.Coords, EltTy.bits .f32 = 32 ∨ (Rect.block (s := S4096x14) S512x14.size (cc0_transform_3 i) (hinb0_3 i)).WholeWords (EltTy.packing .f32)

variable [Facts₀]

def dot_S512x4096_S4096x14_S512x14_1_0_0_1_n_n : DotDims S512x4096 S4096x14 S512x14 where
  lhsContracting := [1]
  rhsContracting := [0]
  lhsNonContracting := [0]
  rhsNonContracting := [1]
  lhsBatch := []
  rhsBatch := []
  wf := dot_S512x4096_S4096x14_S512x14_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4096x14.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x14.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x16384 : Shape := ⟨2, ![4096, 16384]⟩
abbrev S16384 : Shape := ⟨1, ![16384]⟩
abbrev S14 : Shape := ⟨1, ![14]⟩
abbrev S_ : Shape := ⟨0, ![]⟩
abbrev S14x1 : Shape := ⟨2, ![14, 1]⟩
abbrev S1x16384 : Shape := ⟨2, ![1, 16384]⟩
abbrev S14x16384 : Shape := ⟨2, ![14, 16384]⟩
abbrev S4096x14 : Shape := ⟨2, ![4096, 14]⟩

abbrev nBuf : Space → Nat
  | .hbm => 27
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S16384, .i32⟩
  | .hbm, ⟨3, _⟩ => ⟨S14, .i32⟩
  | .hbm, ⟨4, _⟩ => ⟨S_, .i32⟩
  | .hbm, ⟨5, _⟩ => ⟨S14, .i32⟩
  | .hbm, ⟨6, _⟩ => ⟨S14, .i32⟩
  | .hbm, ⟨7, _⟩ => ⟨S14x1, .i32⟩
  | .hbm, ⟨8, _⟩ => ⟨S1x16384, .i32⟩
  | .hbm, ⟨9, _⟩ => ⟨S14x16384, .i32⟩
  | .hbm, ⟨10, _⟩ => ⟨S14x16384, .i32⟩
  | .hbm, ⟨11, _⟩ => ⟨S14x16384, .i32⟩
  | .hbm, ⟨12, _⟩ => ⟨S_, .i32⟩
  | .hbm, ⟨13, _⟩ => ⟨S14x16384, .i32⟩
  | .hbm, ⟨14, _⟩ => ⟨S14x16384, .i32⟩
  | .hbm, ⟨15, _⟩ => ⟨S14x16384, .f32⟩
  | .hbm, ⟨16, _⟩ => ⟨S_, .f32⟩
  | .hbm, ⟨17, _⟩ => ⟨S14x16384, .f32⟩
  | .hbm, ⟨18, _⟩ => ⟨S14x16384, .f32⟩
  | .hbm, ⟨19, _⟩ => ⟨S_, .f32⟩
  | .hbm, ⟨20, _⟩ => ⟨S14x16384, .f32⟩
  | .hbm, ⟨21, _⟩ => ⟨S14x16384, .f32⟩
  | .hbm, ⟨22, _⟩ => ⟨S14x16384, .f32⟩
  | .hbm, ⟨23, _⟩ => ⟨S4096x16384, .f32⟩
  | .hbm, ⟨24, _⟩ => ⟨S4096x16384, .f32⟩
  | .hbm, ⟨25, _⟩ => ⟨S4096x16384, .f32⟩
  | .hbm, ⟨26, _⟩ => ⟨S4096x14, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S_S14 : S_.BroadcastsInDim S14 (![] : Fin 0 → Fin S14.rank)
  bcast_S14_S14x1_0 : S14.BroadcastsInDim S14x1 (![0] : Fin 1 → Fin S14x1.rank)
  bcast_S16384_S1x16384_1 : S16384.BroadcastsInDim S1x16384 (![1] : Fin 1 → Fin S1x16384.rank)
  bcast_S1x16384_S14x16384_0_1 : S1x16384.BroadcastsInDim S14x16384 (![0, 1] : Fin 2 → Fin S14x16384.rank)
  bcast_S14x1_S14x16384_0_1 : S14x1.BroadcastsInDim S14x16384 (![0, 1] : Fin 2 → Fin S14x16384.rank)
  bcast_S_S14x16384 : S_.BroadcastsInDim S14x16384 (![] : Fin 0 → Fin S14x16384.rank)
  dot_S4096x16384_S14x16384_S4096x14_1_1_0_0_n_n_wf : DotDims.WF S4096x16384 S14x16384 S4096x14 [1] [1] [0] [0] [] []

variable [Facts₀]

def dot_S4096x16384_S14x16384_S4096x14_1_1_0_0_n_n : DotDims S4096x16384 S14x16384 S4096x14 where
  lhsContracting := [1]
  rhsContracting := [1]
  lhsNonContracting := [0]
  rhsNonContracting := [0]
  lhsBatch := []
  rhsBatch := []
  wf := dot_S4096x16384_S14x16384_S4096x14_1_1_0_0_n_n_wf

class Facts : Prop extends Facts₀ where

variable [Facts]
-- ==== Proof.KernelPieces.lean ====
/-
  What the body's stores leave behind, case by case.

  The body has three control cases over the grid's second coordinate k.  At k = 0 it zeroes the accumulator and then
  adds the point's product into it; at k = 1, 2 it only adds; at k = 3 it adds and then copies the accumulator to
  the output block.  In every case the accumulator ends as the one arithmetic term of the body, applied to the
  point's three input blocks and to what the accumulator held when the addition read it: the reset value at k = 0,
  the previous point's contents otherwise.  The output block at k = 3 is a copy of that same term.

  Each buffer is loaded and stored whole (one rectangle at zero offsets of the buffer's own extents), so a load
  reads the contents, a single store leaves its payload, and a store that comes last hides the ones before it.
-/
import proofs.«164063_j35150012350919_1_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- The offsets of a whole-buffer rectangle of rank 2 are zero. -/
theorem zero_offsets : (![0, 0] : Fin 2 → Nat) = fun _ => 0 := by
  funext a; match a with | ⟨0, _⟩ => rfl | ⟨1, _⟩ => rfl

/-- At k = 0 the accumulator ends as the body's term over the reset value: the zeroing store is hidden by the
    accumulating store, whose own read of the accumulator sees the zeroing store's payload. -/
theorem scratch_first (c : Dev nD) (i : grid0.Coords) (arg2 : Memref sig .tc .vmem S512x4096 .f32) (harg2 : arg2.IsWhole) (arg3 : Memref sig .tc .vmem S512x4096 .f32) (harg3 : arg3.IsWhole) (arg4 : Memref sig .tc .vmem S4096x14 .bf16) (harg4 : arg4.IsWhole) (arg5 : Memref sig .tc .vmem S512x14 .f32) (harg5 : arg5.IsWhole) (arg6 : Memref sig .tc .vmem S512x14 .f32) (harg6 : arg6.IsWhole) (hc0 : cond0_0 i) (hc1 : ¬cond0_1 i)
    (x0 : Vec F S512x4096 .f32) (x1 : Vec F S512x4096 .f32) (x2 : Vec F S4096x14 .bf16) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x14) zero_offsets]
  simp only [View.readAt_eq_ld, harg2.read_unread, harg3.read_unread, harg4.read_unread, harg6.read_unread,
    View.ld_unit_zero (S := S512x4096) zero_offsets, View.ld_unit_zero (S := S4096x14) zero_offsets,
    View.ld_unit_zero (S := S512x14) zero_offsets, View.readCov_unit_zero (S := S512x14) _ zero_offsets]

/-- At k = 1, 2 the accumulator ends as the body's term over what it held before. -/
theorem scratch_middle (c : Dev nD) (i : grid0.Coords) (arg2 : Memref sig .tc .vmem S512x4096 .f32) (harg2 : arg2.IsWhole) (arg3 : Memref sig .tc .vmem S512x4096 .f32) (harg3 : arg3.IsWhole) (arg4 : Memref sig .tc .vmem S4096x14 .bf16) (harg4 : arg4.IsWhole) (arg5 : Memref sig .tc .vmem S512x14 .f32) (harg5 : arg5.IsWhole) (arg6 : Memref sig .tc .vmem S512x14 .f32) (harg6 : arg6.IsWhole) (hc0 : ¬cond0_0 i) (hc1 : ¬cond0_1 i)
    (x0 : Vec F S512x4096 .f32) (x1 : Vec F S512x4096 .f32) (x2 : Vec F S4096x14 .bf16) (xs0 : Vec F S512x14 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S512x14) zero_offsets]
  simp only [View.readAt_eq_ld, harg2.read_unread, harg3.read_unread, harg4.read_unread, harg6.read_unread,
    View.ld_unit_zero (S := S512x4096) zero_offsets, View.ld_unit_zero (S := S4096x14) zero_offsets,
    View.ld_unit_zero (S := S512x14) zero_offsets, View.readCov_unit_zero (S := S512x14) _ zero_offsets]

/-- At k = 3 the accumulator likewise ends as the body's term over what it held before. -/
theorem scratch_last (c : Dev nD) (i : grid0.Coords) (arg2 : Memref sig .tc .vmem S512x4096 .f32) (harg2 : arg2.IsWhole) (arg3 : Memref sig .tc .vmem S512x4096 .f32) (harg3 : arg3.IsWhole) (arg4 : Memref sig .tc .vmem S4096x14 .bf16) (harg4 : arg4.IsWhole) (arg5 : Memref sig .tc .vmem S512x14 .f32) (harg5 : arg5.IsWhole) (arg6 : Memref sig .tc .vmem S512x14 .f32) (harg6 : arg6.IsWhole) (hc0 : ¬cond0_0 i) (hc1 : cond0_1 i)
    (x0 : Vec F S512x4096 .f32) (x1 : Vec F S512x4096 .f32) (x2 : Vec F S4096x14 .bf16) (xs0 : Vec F S512x14 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S512x14) zero_offsets]
  simp only [View.readAt_eq_ld, harg2.read_unread, harg3.read_unread, harg4.read_unread, harg6.read_unread,
    View.ld_unit_zero (S := S512x4096) zero_offsets, View.ld_unit_zero (S := S4096x14) zero_offsets,
    View.ld_unit_zero (S := S512x14) zero_offsets, View.readCov_unit_zero (S := S512x14) _ zero_offsets]

/-- At k = 3 the output block is a copy of the accumulator just stored: the same term. -/
theorem output_last (c : Dev nD) (i : grid0.Coords) (arg2 : Memref sig .tc .vmem S512x4096 .f32) (harg2 : arg2.IsWhole) (arg3 : Memref sig .tc .vmem S512x4096 .f32) (harg3 : arg3.IsWhole) (arg4 : Memref sig .tc .vmem S4096x14 .bf16) (harg4 : arg4.IsWhole) (arg5 : Memref sig .tc .vmem S512x14 .f32) (harg5 : arg5.IsWhole) (arg6 : Memref sig .tc .vmem S512x14 .f32) (harg6 : arg6.IsWhole) (hc0 : ¬cond0_0 i) (hc1 : cond0_1 i)
    (x0 : Vec F S512x4096 .f32) (x1 : Vec F S512x4096 .f32) (x2 : Vec F S4096x14 .bf16) (xs0 : Vec F S512x14 .f32) :
    out0_C_3 c i arg2 harg2 arg3 harg3 arg4 harg4 arg5 harg5 arg6 harg6 hc0 hc1 x0 x1 x2 xs0 = k0_pay2 x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S512x14) zero_offsets]
  simp only [View.readAt_eq_ld, harg2.read_unread, harg3.read_unread, harg4.read_unread, harg6.read_unread,
    View.ld_unit_zero (S := S512x4096) zero_offsets, View.ld_unit_zero (S := S4096x14) zero_offsets,
    View.ld_unit_zero (S := S512x14) zero_offsets, View.readCov_unit_zero (S := S512x14) _ zero_offsets]

end Cert.KernelIdeal.Pieces

end
-- ==== Proof.PauliZ.lean ====
/-
  What both programs compute, stated once over literal shapes.

  A batch row `b` of the two input arrays holds the real and imaginary parts of 16384 amplitudes.  For each of
  14 qubits `q` the result is the expectation of the Pauli-Z operator on that qubit,
      E(b, q) = sum over n < 16384 of (re(b,n)^2 + im(b,n)^2) * sgn(n, q),
  where sgn(n, q) = 1 - 2 * bit (13 - q) of n is the diagonal entry of Z on qubit q at basis state n.

  The sign entry is kept exactly as both programs spell it on words (shift right by 13 - q, mask with 1, convert,
  double, subtract from one): the two programs build the same table, one transposed, so no property of the
  entry beyond its spelling is needed.

  The one algebraic law: a sum over 16384 terms is the sum over 4 consecutive blocks of 4096 terms.  It holds in
  any commutative additive monoid, so on the extended reals it needs no finiteness.
-/
import Idealize.ShloMosaic.PureOps.Ideal
import Idealize.ShloMosaic.Lib.ValueIdx
import Mathlib.Algebra.BigOperators.Fin
import Mathlib.Logic.Equiv.Fin.Basic

noncomputable section

namespace PauliZ

open Idealize.ShloMosaic Idealize.ShloMosaic.ValueIdx

/-- The diagonal entry of Pauli-Z on qubit `q` at basis state `n`: one minus twice bit `13 - q` of `n`, in the
    words and float operations both programs use, read on the extended reals. -/
def sgn (n : Fin 16384) (q : Fin 14) : EReal :=
  Ideal.ofBits .f32 0x3F800000#32
    - Ideal.ofBits .f32 0x40000000#32
      * (((IntOp.andi (IntOp.shrsi .host (BitVec.ofNat 32 n.val) (IntOp.subi 13#32 (BitVec.ofNat 32 q.val))) 1#32).toInt : ℝ) : EReal)

/-- The squared modulus of an amplitude from its two parts. -/
def weight (re im : EReal) : EReal := re * re + im * im

/-- The expectation of Z on qubit `i 1` in the state of batch row `i 0`. -/
def expect (re im : (⟨2, ![4096, 16384]⟩ : Shape).Idx → EReal) : (⟨2, ![4096, 14]⟩ : Shape).Idx → EReal :=
  fun i => ∑ n : Fin 16384, weight (re (ix2 (i 0) n)) (im (ix2 (i 0) n)) * sgn n (i 1)

/-- Position `j` of block `s` among 4 blocks of 4096. -/
abbrev inBlock (s : Fin 4) (j : Fin 4096) : Fin 16384 := ⟨4096 * s.val + j.val, by omega⟩

/-- A sum over 16384 terms, taken block by block. -/
theorem sum_four_blocks {M : Type*} [AddCommMonoid M] (f : Fin 16384 → M) :
    ∑ s : Fin 4, ∑ j : Fin 4096, f (inBlock s j) = ∑ n : Fin 16384, f n := by
  rw [← Equiv.sum_comp (finProdFinEquiv : Fin 4 × Fin 4096 ≃ Fin 16384) f, Fintype.sum_prod_type]
  refine Finset.sum_congr rfl fun s _ => Finset.sum_congr rfl fun j _ => congrArg f (Fin.ext ?_)
  show 4096 * s.val + j.val = j.val + 4096 * s.val
  omega

end PauliZ

end
-- ==== Proof.KernelSigns.lean ====
/-
  The table of signs the kernel's host code builds before the call.

  Entry (n, q) of the [16384, 14] table is built from the basis-state number n (an iota along axis 0, carried to a
  column and repeated along axis 1) shifted right by 13 - q (an iota over the qubits subtracted from 13, carried to a
  row and repeated along axis 0), masked with 1, converted to a float, doubled and subtracted from one; the final
  narrowing of the float format changes nothing on the extended reals.  So entry (n, q) is `sgn n q`: the table is
  the reference's, transposed.
-/
import proofs.«164063_j35150012350919_1_alg».proof.Proof.Gen.KernelIdeal.Frame
import proofs.«164063_j35150012350919_1_alg».proof.Proof.PauliZ
import Idealize.ShloMosaic.Lib.StableHlo.Run
import Idealize.ShloMosaic.Lib.Pipeline.Value
import Idealize.ShloMosaic.Lib.ValueIdx

noncomputable section

namespace Cert.KernelIdeal.Signs

open Cert.KernelIdeal Cert.KernelIdeal.Gen
open Idealize.ShloMosaic Idealize.ShloMosaic.TcCoe Idealize.ShloMosaic.ValueIdx Idealize.ShloMosaic.StableHlo Idealize.SL.Sem

/-! ## Each broadcast of the table's construction, read at an index -/

section Broadcasts

variable {α : Type}

theorem scalar_to_qubits (x : S_.Idx → α) (j : S14.Idx) : broadcastInDim S14 ![] bcast_S_S14 x j = x ix0 :=
  broadcastInDim_apply _ bcast_S_S14 x j ix0 (fun a => a.elim0)

theorem scalar_to_table (x : S_.Idx → α) (j : S16384x14.Idx) : broadcastInDim S16384x14 ![] bcast_S_S16384x14 x j = x ix0 :=
  broadcastInDim_apply _ bcast_S_S16384x14 x j ix0 (fun a => a.elim0)

theorem states_to_column (x : S16384.Idx → α) (j : S16384x1.Idx) :
    broadcastInDim S16384x1 ![0] bcast_S16384_S16384x1_0 x j = x (ix1 (j 0)) :=
  broadcastInDim_apply _ bcast_S16384_S16384x1_0 x j (ix1 (j 0)) (fun a => match a with
    | ⟨0, _⟩ => by show (j 0).val = if (16384 : Nat) = 1 then 0 else (j 0).val; rw [if_neg (by decide)])

theorem qubits_to_row (x : S14.Idx → α) (j : S1x14.Idx) :
    broadcastInDim S1x14 ![1] bcast_S14_S1x14_1 x j = x (ix1 (j 1)) :=
  broadcastInDim_apply _ bcast_S14_S1x14_1 x j (ix1 (j 1)) (fun a => match a with
    | ⟨0, _⟩ => by show (j 1).val = if (14 : Nat) = 1 then 0 else (j 1).val; rw [if_neg (by decide)])

theorem column_to_table (x : S16384x1.Idx → α) (j : S16384x14.Idx) :
    broadcastInDim S16384x14 ![0, 1] bcast_S16384x1_S16384x14_0_1 x j = x (ix2 (j 0) 0) :=
  broadcastInDim_apply _ bcast_S16384x1_S16384x14_0_1 x j (ix2 (j 0) 0) (fun a => match a with
    | ⟨0, _⟩ => by show (j 0).val = if (16384 : Nat) = 1 then 0 else (j 0).val; rw [if_neg (by decide)]
    | ⟨1, _⟩ => by show 0 = if (1 : Nat) = 1 then 0 else (j 1).val; rw [if_pos rfl])

theorem row_to_table (x : S1x14.Idx → α) (j : S16384x14.Idx) :
    broadcastInDim S16384x14 ![0, 1] bcast_S1x14_S16384x14_0_1 x j = x (ix2 0 (j 1)) :=
  broadcastInDim_apply _ bcast_S1x14_S16384x14_0_1 x j (ix2 0 (j 1)) (fun a => match a with
    | ⟨0, _⟩ => by show 0 = if (1 : Nat) = 1 then 0 else (j 0).val; rw [if_pos rfl]
    | ⟨1, _⟩ => by show (j 1).val = if (14 : Nat) = 1 then 0 else (j 1).val; rw [if_neg (by decide)])

end Broadcasts

/-! ## The table -/

/-- The host operations' composed term for the table. -/
def table : FVec Ideal S16384x14 .bf16 :=
  truncf .bf16
    (subf (broadcastInDim S16384x14 ![] bcast_S_S16384x14 (constant (F := Ideal) S_ .f32 0x3F800000#32))
      (mulf (broadcastInDim S16384x14 ![] bcast_S_S16384x14 (constant (F := Ideal) S_ .f32 0x40000000#32))
        (sitofp .f32
          (andi
            (Host.shrsi
              (broadcastInDim S16384x14 ![0, 1] bcast_S16384x1_S16384x14_0_1
                (broadcastInDim S16384x1 ![0] bcast_S16384_S16384x1_0 (iotaInDim S16384 32 0)))
              (broadcastInDim S16384x14 ![0, 1] bcast_S1x14_S16384x14_0_1
                (broadcastInDim S1x14 ![1] bcast_S14_S1x14_1
                  (subi (broadcastInDim S14 ![] bcast_S_S14 (constantI S_ 32 13#32)) (iotaInDim S14 32 0)))))
            (broadcastInDim S16384x14 ![] bcast_S_S16384x14 (constantI S_ 32 1#32))))))
    bitsLt_bf16_f32

/-- Entry (n, q) of the table is the sign of basis state n on qubit q. -/
theorem table_apply (n : Fin 16384) (q : Fin 14) : table (ix2 n q) = PauliZ.sgn n q := by
  unfold table
  rw [truncf_apply, subf_apply, mulf_apply, sitofp_apply, scalar_to_table, scalar_to_table]
  show _ - _ * (((IntOp.andi (IntOp.shrsi .host
      (broadcastInDim S16384x14 ![0, 1] bcast_S16384x1_S16384x14_0_1
        (broadcastInDim S16384x1 ![0] bcast_S16384_S16384x1_0 (iotaInDim S16384 32 0)) (ix2 n q))
      (broadcastInDim S16384x14 ![0, 1] bcast_S1x14_S16384x14_0_1
        (broadcastInDim S1x14 ![1] bcast_S14_S1x14_1
          (subi (broadcastInDim S14 ![] bcast_S_S14 (constantI S_ 32 13#32)) (iotaInDim S14 32 0))) (ix2 n q)))
      (broadcastInDim S16384x14 ![] bcast_S_S16384x14 (constantI S_ 32 1#32) (ix2 n q))).toInt : ℝ) : EReal) = _
  rw [column_to_table, states_to_column, row_to_table, qubits_to_row, scalar_to_table]
  show _ - _ * (((IntOp.andi (IntOp.shrsi .host (BitVec.ofNat 32 n.val)
      (IntOp.subi (broadcastInDim S14 ![] bcast_S_S14 (constantI S_ 32 13#32) (ix1 q)) (BitVec.ofNat 32 q.val))) 1#32).toInt : ℝ) : EReal) = _
  rw [scalar_to_qubits]
  rfl

/-- The region finds the table's array holding the table. -/
theorem V_table (m : (ℓ : Loc nD τ sig) → Buf (Elt Ideal) ℓ) (c : Dev nD) :
    (V m c main_v16 : S16384x14.Idx → EReal) = table := by
  dsimp only [Gen.V, Gen.hostOps0]
  after_results
  rfl

end Cert.KernelIdeal.Signs

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KernelStep.lean ====
/-
  One grid point's arithmetic, entry by entry.

  The body leaves in the accumulator, at row r and qubit q, what it held there plus the sum over the 4096 basis
  states of the point's block of (re^2 + im^2)(r, j) * table(j, q): the narrowing of the squared moduli to a shorter float
  format is the identity on the extended reals, the matrix product into a zero accumulator is its contraction sum, and
  that sum runs over the block's columns.  The reset value is zero everywhere.
-/
import proofs.«164063_j35150012350919_1_alg».proof.Proof.Gen.KernelIdeal.Skeleton
import proofs.«164063_j35150012350919_1_alg».proof.Proof.PauliZ
import proofs.«164063_j35150012350919_1_alg».proof.Proof.LibPlainDot
import Idealize.ShloMosaic.PureOps.Ideal.Laws
import Idealize.ShloMosaic.Lib.Pipeline.Value
import Idealize.ShloMosaic.Lib.ValueIdx

noncomputable section

namespace Cert.KernelIdeal.Step

open Cert.KernelIdeal Cert.KernelIdeal.Gen
open Idealize.ShloMosaic Idealize.ShloMosaic.TcCoe Idealize.ShloMosaic.ValueIdx

/-- The value the accumulator is reset to is zero at every entry. -/
theorem reset_apply (y : S512x14.Idx) : k0_pay1 (F := Ideal) y = 0 := by
  unfold k0_pay1
  simp only [shapeCast_self]
  exact Ideal.ofBits_zero_f32

/-- What one point adds to the accumulator at (r, q). -/
theorem step_apply (x0 x1 : S512x4096.Idx → EReal) (x2 : S4096x14.Idx → EReal) (acc : S512x14.Idx → EReal)
    (r : Fin 512) (q : Fin 14) :
    k0_pay2 (F := Ideal) x0 x1 x2 acc (ix2 r q)
      = acc (ix2 r q) + ∑ j : Fin 4096, PauliZ.weight (x0 (ix2 r j)) (x1 (ix2 r j)) * x2 (ix2 j q) := by
  unfold k0_pay2
  simp only [shapeCast_self]
  rw [addf_apply]
  simp only [matmul]
  rw [Ideal.matmul_constant_zero_apply,
    PlainDot.sum_eq dot_S512x4096_S4096x14_S512x14_1_0_0_1_n_n rfl rfl rfl rfl rfl rfl]
  rfl

end Cert.KernelIdeal.Step

end
-- ==== Proof.KernelExpect.lean ====
/-
  The kernel computes the expectation.

  The grid has 8 x 4 points; point t works on row block t / 4 (512 batch rows) and on block k = t % 4 of the basis
  states (4096 of them).  Its three input blocks are the rows 512 (t / 4) + r and columns 4096 k + j of the two argument
  arrays, and the rows 4096 k + j of the sign table, whose entry (n, q) is `sgn n q`.

  The accumulator is reset to zero at k = 0 and every point adds, at (r, q), the sum over j < 4096 of
  weight(row, 4096 k + j) * sgn(4096 k + j, q): the point's addend.  So after the point with k = 3 the accumulator
  holds zero plus the four addends of its row block, which is the sum over all 16384 basis states, block by block:
  the expectation.  That point also copies the accumulator to the output block, the only one written back for the
  row block, and the eight row blocks tile the result array.
-/
import proofs.«164063_j35150012350919_1_alg».proof.Proof.Gen.KernelIdeal.Value
import proofs.«164063_j35150012350919_1_alg».proof.Proof.KernelPieces
import proofs.«164063_j35150012350919_1_alg».proof.Proof.KernelSigns
import proofs.«164063_j35150012350919_1_alg».proof.Proof.KernelStep
import proofs.«164063_j35150012350919_1_alg».proof.Proof.PauliZ
import Idealize.ShloMosaic.Lib.Pipeline.Value
import Idealize.ShloMosaic.Lib.ValueIdx

-- membership in a rectangle of the arrays' extents recurses once per coordinate of the long axes
set_option maxRecDepth 16384

noncomputable section

namespace Cert.KernelIdeal.Expect

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Names of literal type for the arrays and the blocks -/

/-- The array of real parts and the array of imaginary parts, as launched. -/
abbrev reArr (c : Dev nD) : S4096x16384.Idx → EReal := m ((c : Thread nD τ).loc main_arg0)
abbrev imArr (c : Dev nD) : S4096x16384.Idx → EReal := m ((c : Thread nD τ).loc main_arg1)

/-- The three input blocks of a point. -/
abbrev reBlk (c : Dev nD) (t : Fin cfg0.N) : S512x4096.Idx → EReal := iblk m c 0 t
abbrev imBlk (c : Dev nD) (t : Fin cfg0.N) : S512x4096.Idx → EReal := iblk m c 1 t
abbrev sgBlk (c : Dev nD) (t : Fin cfg0.N) : S4096x14.Idx → EReal := iblk m c 2 t

/-- What the result array should hold. -/
abbrev goal (c : Dev nD) : S4096x14.Idx → EReal := PauliZ.expect (reArr m c) (imArr m c)

/-! ## Where a point's blocks sit -/

theorem point_lt (t : Fin cfg0.N) : t.val < 32 := lt_of_lt_of_eq t.isLt (show cfg0.N = 32 from N_0)

/-- The batch row under row `r` of the blocks of point `n`. -/
def rowAt (n : ℕ) (hn : n < 32) (r : Fin 512) : Fin 4096 := ⟨512 * (n / 4) + r.val, by have := r.isLt; omega⟩

/-- The block of basis states point `n` works on. -/
def blockAt (n : ℕ) : Fin 4 := ⟨n % 4, Nat.mod_lt _ (by decide)⟩

/-- The windows' block indices, decided over the 32 points: inputs at (t / 4, t % 4), the table at (t % 4, 0), the
    output at (t / 4, 0). -/
theorem index_facts : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = t.val % 4
    ∧ win0_2.index t (0 : Fin 2) = t.val % 4 ∧ win0_2.index t (1 : Fin 2) = 0
    ∧ win0_3.index t (0 : Fin 2) = t.val / 4 ∧ win0_3.index t (1 : Fin 2) = 0 :=
  (by decide +kernel : ∀ t : Fin grid0.N, _)

/-- Entry (r, j) of the block of real parts is the array's entry at the point's row and column. -/
theorem reBlk_apply (c : Dev nD) (t : Fin cfg0.N) (r : Fin 512) (j : Fin 4096) :
    reBlk m c t (ix2 r j) = reArr m c (ix2 (rowAt t.val (point_lt t) r) (PauliZ.inBlock (blockAt t.val) j)) := by
  obtain ⟨e0, e1, -⟩ := index_facts t
  show V m c main_arg0 (((cfg0.win 0).blk t).view.emb (ix2 r j)) = _
  rw [V_main_arg0]
  refine congrArg (m ((c : Thread nD τ).loc main_arg0)) (funext fun a => Fin.ext ?_)
  match a with
  | ⟨0, _⟩ => show win0_0.index t (0 : Fin 2) * 512 + 1 * r.val = 512 * (t.val / 4) + r.val; omega
  | ⟨1, _⟩ => show win0_0.index t (1 : Fin 2) * 4096 + 1 * j.val = 4096 * (t.val % 4) + j.val; omega

/-- The same for the block of imaginary parts. -/
theorem imBlk_apply (c : Dev nD) (t : Fin cfg0.N) (r : Fin 512) (j : Fin 4096) :
    imBlk m c t (ix2 r j) = imArr m c (ix2 (rowAt t.val (point_lt t) r) (PauliZ.inBlock (blockAt t.val) j)) := by
  obtain ⟨-, -, e2, e3, -⟩ := index_facts t
  show V m c main_arg1 (((cfg0.win 1).blk t).view.emb (ix2 r j)) = _
  rw [V_main_arg1]
  refine congrArg (m ((c : Thread nD τ).loc main_arg1)) (funext fun a => Fin.ext ?_)
  match a with
  | ⟨0, _⟩ => show win0_1.index t (0 : Fin 2) * 512 + 1 * r.val = 512 * (t.val / 4) + r.val; omega
  | ⟨1, _⟩ => show win0_1.index t (1 : Fin 2) * 4096 + 1 * j.val = 4096 * (t.val % 4) + j.val; omega

/-- Entry (j, q) of the table's block is the sign of the block's j-th basis state on qubit q. -/
theorem sgBlk_apply (c : Dev nD) (t : Fin cfg0.N) (j : Fin 4096) (q : Fin 14) :
    sgBlk m c t (ix2 j q) = PauliZ.sgn (PauliZ.inBlock (blockAt t.val) j) q := by
  obtain ⟨-, -, -, -, e4, e5, -⟩ := index_facts t
  show V m c main_v16 (((cfg0.win 2).blk t).view.emb (ix2 j q)) = _
  have hi : ((cfg0.win 2).blk t).view.emb (ix2 j q) = ix2 (PauliZ.inBlock (blockAt t.val) j) q := by
    funext a; apply Fin.ext
    match a with
    | ⟨0, _⟩ => show win0_2.index t (0 : Fin 2) * 4096 + 1 * j.val = 4096 * (t.val % 4) + j.val; omega
    | ⟨1, _⟩ => show win0_2.index t (1 : Fin 2) * 14 + 1 * q.val = q.val; omega
  rw [hi]
  exact (congrFun (Signs.V_table m c) _).trans (Signs.table_apply _ _)

/-! ## A point's addend, and one step of the accumulator -/

/-- What point `n` adds to the accumulator at block entry `y`: the sum over its 4096 basis states of
    weight * sign.  (Zero past the grid, where it is never used.) -/
def addend (c : Dev nD) (n : ℕ) (y : S512x14.Idx) : EReal :=
  if h : n < 32 then
    ∑ j : Fin 4096, PauliZ.weight (reArr m c (ix2 (rowAt n h (y 0)) (PauliZ.inBlock (blockAt n) j)))
        (imArr m c (ix2 (rowAt n h (y 0)) (PauliZ.inBlock (blockAt n) j)))
      * PauliZ.sgn (PauliZ.inBlock (blockAt n) j) (y 1)
  else 0

/-- The body's term at a point's blocks: what the accumulator held plus the point's addend. -/
theorem step_at (c : Dev nD) (t : Fin cfg0.N) (acc : S512x14.Idx → EReal) (y : S512x14.Idx) :
    k0_pay2 (F := Ideal) (reBlk m c t) (imBlk m c t) (sgBlk m c t) acc y = acc y + addend m c t.val y := by
  obtain ⟨r, q, rfl⟩ : ∃ (r : Fin 512) (q : Fin 14), y = ix2 r q := ⟨y 0, y 1, eq_ix2 y⟩
  rw [Step.step_apply]
  unfold addend
  rw [dif_pos (point_lt t)]
  refine congrArg (acc (ix2 r q) + ·) (Finset.sum_congr rfl fun j _ => ?_)
  rw [reBlk_apply, imBlk_apply, sgBlk_apply]

/-- At a point with k = 0 the accumulator ends at zero plus the point's addend, whatever it held. -/
theorem scratch_reset (c : Dev nD) (n : ℕ) (hb : n < cfg0.N) (h0 : n % 4 = 0) (acc : Vec Ideal S512x14 .f32)
    (y : S512x14.Idx) : scAt0_0 m c n hb acc y = 0 + addend m c n y := by
  have h1 : ¬ n % 4 = 3 := by omega
  unfold scAt0_0
  rw [dif_pos h0, dif_neg h1]
  refine (congrFun (Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
    ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) y).trans ?_
  refine (step_at m c (⟨n, hb⟩ : Fin cfg0.N) _ y).trans ?_
  rw [Step.reset_apply]

/-- At a point with k > 0 the accumulator ends at what it held plus the point's addend. -/
theorem scratch_step (c : Dev nD) (n : ℕ) (hb : n < cfg0.N) (h0 : ¬ n % 4 = 0) (acc : Vec Ideal S512x14 .f32)
    (y : S512x14.Idx) : scAt0_0 m c n hb acc y = acc y + addend m c n y := by
  unfold scAt0_0
  rw [dif_neg h0]
  by_cases h1 : n % 4 = 3
  · rw [dif_pos h1]
    refine (congrFun (Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
      (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) y).trans ?_
    exact step_at m c (⟨n, hb⟩ : Fin cfg0.N) acc y
  · rw [dif_neg h1]
    refine (congrFun (Pieces.scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
      (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) y).trans ?_
    exact step_at m c (⟨n, hb⟩ : Fin cfg0.N) acc y

/-! ## The accumulator after a point, and the output block -/

/-- After point t the accumulator holds zero plus the addends of the points of t's row block up to t. -/
theorem scratch_after (c : Dev nD) (t : Fin cfg0.N) (y : S512x14.Idx) :
    (outsAt0 m c t.val t.isLt).2 y
      = 0 + ∑ s ∈ Finset.range (t.val % 4 + 1), addend m c (4 * (t.val / 4) + s) y := by
  rw [soutsAt0_0_eq m c t]
  exact Pipeline.accAt_add_apply (ι := S512x14.Idx) (β := EReal)
    (fun n h => scAt0_0 m c n h (VS0_0.read (Elt Ideal) VS0_0.junk)) (scAt0_0 m c) (fun _ => 0) (addend m c)
    (4 * (t.val / 4)) 3
    (fun h i => scratch_reset m c _ h (by omega) _ i)
    (fun n h acc i hlt hle => scratch_step m c n h (by omega) acc i)
    (t.val % 4) (by omega) _ y

/-- At a point with k = 3 the output block is the accumulator: zero plus the four addends of the row block. -/
theorem output_at_last (c : Dev nD) (t : Fin cfg0.N) (h1 : t.val % 4 = 3) (y : S512x14.Idx) :
    (outsAt0 m c t.val t.isLt).1 y = 0 + ∑ s ∈ Finset.range 4, addend m c (4 * (t.val / 4) + s) y := by
  have h0 : ¬ t.val % 4 = 0 := by omega
  have e : (outsAt0 m c t.val t.isLt).1 = (outsAt0 m c t.val t.isLt).2 := by
    rw [outsAt0_C m c t h0 h1]
    dsimp only
    exact (Pieces.output_last (F := Ideal) c (grid0.coords t) (ms0_0 t) (hs0_0 t) (ms0_1 t) (hs0_1 t) (ms0_2 t) (hs0_2 t) (ms0_3 t) (hs0_3 t) scM0_0 (Memref.isWhole_whole _)
        (fun h => h0 ((hcond0_0 t).mp h)) ((hcond0_1 t).mpr h1) (iblk m c 0 t) (iblk m c 1 t) (iblk m c 2 t)
        (outsAt0 m c (t.val - 1) (Nat.lt_of_le_of_lt (Nat.sub_le _ _) t.isLt)).2).trans
      (Pieces.scratch_last (F := Ideal) c (grid0.coords t) (ms0_0 t) (hs0_0 t) (ms0_1 t) (hs0_1 t) (ms0_2 t) (hs0_2 t) (ms0_3 t) (hs0_3 t) scM0_0 (Memref.isWhole_whole _)
        (fun h => h0 ((hcond0_0 t).mp h)) ((hcond0_1 t).mpr h1) (iblk m c 0 t) (iblk m c 1 t) (iblk m c 2 t)
        (outsAt0 m c (t.val - 1) (Nat.lt_of_le_of_lt (Nat.sub_le _ _) t.isLt)).2).symm
  rw [e, scratch_after m c t y, h1]

/-- Zero plus the four addends of a row block is the expectation at the row: the sum over the basis states taken
    block by block. -/
theorem four_addends (c : Dev nD) (t : Fin cfg0.N) (y : S512x14.Idx) :
    0 + ∑ s ∈ Finset.range 4, addend m c (4 * (t.val / 4) + s) y
      = goal m c (ix2 (rowAt t.val (point_lt t) (y 0)) (y 1)) := by
  have hN := point_lt t
  rw [zero_add, Finset.sum_range]
  refine Eq.trans ?_ (PauliZ.sum_four_blocks (fun n =>
    PauliZ.weight (reArr m c (ix2 (rowAt t.val hN (y 0)) n)) (imArr m c (ix2 (rowAt t.val hN (y 0)) n)) * PauliZ.sgn n (y 1)))
  refine Finset.sum_congr rfl fun s _ => ?_
  have hs : 4 * (t.val / 4) + s.val < 32 := by have := s.isLt; omega
  have hb : blockAt (4 * (t.val / 4) + s.val) = s :=
    Fin.ext (by show (4 * (t.val / 4) + s.val) % 4 = s.val; have := s.isLt; omega)
  have hr : rowAt (4 * (t.val / 4) + s.val) hs (y 0) = rowAt t.val hN (y 0) :=
    Fin.ext (by show 512 * ((4 * (t.val / 4) + s.val) / 4) + (y 0).val = 512 * (t.val / 4) + (y 0).val
                have := s.isLt; omega)
  unfold addend
  rw [dif_pos hs, hb, hr]

/-! ## From the blocks to the array -/

/-- If the output block of point t holds, at (r, q), an array function's value at the point's row and at q, then what
    the point writes back is its block of that function: the output block sits at rows 512 (t / 4) + r, all 14
    columns.  (Stated for any array function, so that the block's placement is settled without looking inside it.) -/
theorem flushed_of_rows (c : Dev nD) (t : Fin cfg0.N) (G : S4096x14.Idx → EReal)
    (hG : ∀ y : S512x14.Idx, (outsAt0 m c t.val t.isLt).1 y = G (ix2 (rowAt t.val (point_lt t) (y 0)) (y 1))) :
    (dats m 0 c).flushed 3 t = ((cfg0.win 3).blk t).view.read (Elt Ideal) G := by
  obtain ⟨-, -, -, -, -, -, e6, e7⟩ := index_facts t
  rw [flushed3]
  funext y
  show (outsAt0 m c t.val t.isLt).1 y = G (((cfg0.win 3).blk t).view.emb y)
  refine (hG y).trans (congrArg G (funext fun a => Fin.ext ?_))
  match a with
  | ⟨0, _⟩ => show 512 * (t.val / 4) + (y 0).val = win0_3.index t (0 : Fin 2) * 512 + 1 * (y 0).val; omega
  | ⟨1, _⟩ => show (y 1).val = win0_3.index t (1 : Fin 2) * 14 + 1 * (y 1).val; omega

/-- What a point with k = 3 writes back is its block of the expectation. -/
theorem flushed_eq (c : Dev nD) (t : Fin cfg0.N) (hf : (cfg0.win 3).flush t = true) :
    (dats m 0 c).flushed 3 t = ((cfg0.win 3).blk t).view.read (Elt Ideal) (goal m c) :=
  flushed_of_rows m c t (goal m c) fun y =>
    (output_at_last m c t ((flush0_3 t).mp hf) y).trans (four_addends m c t y)

/-- An index of the result array is in a point's output block iff each coordinate is in the block's range. -/
theorem mem_block (t : Fin cfg0.N) (i : S4096x14.Idx) :
    i ∈ ((cfg0.win 3).blk t).view.set ↔ ∀ a : Fin 2, win0_3.index t a * S512x14.size a ≤ (i a).val
      ∧ (i a).val < win0_3.index t a * S512x14.size a + S512x14.size a := by
  show i ∈ ((View.whole main_v17).slice (win0_3.rect t)).set ↔ _
  rw [View.set_slice_whole, Rect.mem_set_unit]
  exact Iff.rfl

/-- Every index of the result array is in the block written back by the last point of its row block. -/
theorem covered (i : S4096x14.Idx) :
    ∃ t : Fin cfg0.N, (cfg0.win 3).flush t = true ∧ i ∈ ((cfg0.win 3).blk t).view.set := by
  have hi0 : (i 0).val < 4096 := (i 0).isLt
  have hi1 : (i 1).val < 14 := (i 1).isLt
  have hlt : 4 * ((i 0).val / 512) + 3 < cfg0.N := by rw [show cfg0.N = 32 from N_0]; omega
  refine ⟨⟨4 * ((i 0).val / 512) + 3, hlt⟩, (flush0_3 _).mpr (by show (4 * ((i 0).val / 512) + 3) % 4 = 3; omega), ?_⟩
  rw [mem_block]
  obtain ⟨-, -, -, -, -, -, e6, e7⟩ := index_facts ⟨4 * ((i 0).val / 512) + 3, hlt⟩
  have e6' : win0_3.index ⟨4 * ((i 0).val / 512) + 3, hlt⟩ (0 : Fin 2) = (4 * ((i 0).val / 512) + 3) / 4 := e6
  intro a
  match a with
  | ⟨0, _⟩ =>
    show win0_3.index ⟨4 * ((i 0).val / 512) + 3, hlt⟩ (0 : Fin 2) * 512 ≤ (i 0).val
      ∧ (i 0).val < win0_3.index ⟨4 * ((i 0).val / 512) + 3, hlt⟩ (0 : Fin 2) * 512 + 512
    omega
  | ⟨1, _⟩ =>
    show win0_3.index ⟨4 * ((i 0).val / 512) + 3, hlt⟩ (1 : Fin 2) * 14 ≤ (i 1).val
      ∧ (i 1).val < win0_3.index ⟨4 * ((i 0).val / 512) + 3, hlt⟩ (1 : Fin 2) * 14 + 14
    omega

/-- The result array after the run is the expectation of the two argument arrays. -/
theorem final (c : Dev nD) : (dats m 0 c).arrAt 3 cfg0.N = goal m c :=
  (dats m 0 c).arrAt_eq_of_cover 3 (goal m c) (fun t hf => flushed_eq m c t hf) covered

/-- The kernel's run: every weakly fair execution ends with the result array at the expectation of the argument
    arrays, which are unchanged. -/
theorem run : θ_run defs (onTc (τ := τ) (main (F := Ideal))) ⟨m, fun _ => 0, ρ⟩ fun r => ∀ c : Dev nD,
      r.2.mem ((c : Thread nD τ).loc main_v17) = goal m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Expect

end
-- ==== Proof.RefExpect.lean ====
/-
  The reference computes the expectation.

  Its table of signs is built at index (q, n) from the basis-state number n (an iota along axis 1) shifted right by
  13 - q (an iota along axis 0 subtracted from 13), masked with 1, converted, doubled and subtracted from one: entry
  (q, n) is `sgn n q`.  Its result contracts axis 1 of the squared moduli with axis 1 of that table, so element (b, q)
  is the sum over n of weight(b, n) * sgn n q.
-/
import proofs.«164063_j35150012350919_1_alg».proof.Proof.Gen.ReferenceIdeal.Read
import proofs.«164063_j35150012350919_1_alg».proof.Proof.PauliZ

noncomputable section

namespace Cert.ReferenceIdeal.Expect

open Cert.ReferenceIdeal Cert.ReferenceIdeal.Gen Cert.ReferenceIdeal.Read
open Idealize.ShloMosaic Idealize.ShloMosaic.TcCoe Idealize.ShloMosaic.ValueIdx

/-- Entry (q, n) of the reference's table is the sign of basis state n on qubit q. -/
theorem table_apply (i : S14x16384.Idx) : val_main_v16 (F := Ideal) i = PauliZ.sgn (i 1) (i 0) := by
  simp only [val_main_v16_apply, val_main_v15_apply, val_main_v14_apply, val_main_cst_1_apply, val_main_v13_apply,
    val_main_v12_apply, val_main_cst_apply, val_main_v11_apply, val_main_v10_apply, val_main_v9_apply,
    val_main_c_0_apply, val_main_v8_apply, val_main_v7_apply, val_main_v6_apply, val_main_v5_apply, val_main_v4_apply,
    val_main_v3_apply, val_main_v2_apply, val_main_v1_apply, val_main_v0_apply, val_main_c_apply]
  rfl

/-- The left operand of the contraction is read at (b, n). -/
theorem lidx_eq (i : S4096x14.Idx) (k : Fin 16384) : lidx_main_v20 i k = ix2 (i 0) k :=
  funext fun a => Fin.ext (by match a with | ⟨0, _⟩ => rfl | ⟨1, _⟩ => rfl)

/-- The reference's result is the expectation of its two arguments. -/
theorem result_eq (x0 x1 : (⟨S4096x16384, .f32⟩ : BufTy).Contents (Elt Ideal)) :
    val_main_v20 (F := Ideal) x0 x1 = PauliZ.expect x0 x1 := by
  funext i
  rw [val_main_v20_apply]
  unfold PauliZ.expect
  refine Finset.sum_congr rfl fun k _ => ?_
  rw [table_apply, val_main_v19_apply, val_main_v17_apply, val_main_v18_apply, lidx_eq]
  rfl

end Cert.ReferenceIdeal.Expect

end
-- ==== Proof.lean ====
/-
  Pauli-Z expectation values of a batch of 14-qubit states: the tiled kernel against the plain reference.

  Both programs take the real and imaginary parts of 4096 state vectors of 16384 amplitudes and return, for each
  state b and qubit q,
      E(b, q) = sum over n < 16384 of (re(b,n)^2 + im(b,n)^2) * sgn(n, q),     sgn(n, q) = 1 - 2 * bit (13 - q) of n.
  The reference builds the [14, 16384] table of signs and contracts it with the squared moduli in one product.  The
  kernel builds the same table transposed, [16384, 14], and walks an 8 x 4 grid: for each block of 512 states it
  zeroes an accumulator, adds the product of a [512, 4096] block of squared moduli with the matching [4096, 14]
  block of the table for each of the four blocks of basis states, and writes the accumulator out after the fourth.

  On the extended reals the two results are equal entry by entry.  The narrowing of the squared moduli and of the
  table to a shorter float format is the identity there; a matrix product into a zero accumulator is its contraction
  sum; zero plus the four block sums is the sum over all 16384 basis states, by associativity and commutativity of
  addition alone, so the finiteness of the inputs is never used.  The two tables agree entry for entry because they
  are spelt with the same word and float operations at transposed indices.

  The three frame claims are the generated frames (the reference's is its run with the result dropped); the
  idealization rewrote nothing, so there is nothing to preserve.
-/
import proofs.«164063_j35150012350919_1_alg».proof.Defs
import proofs.«164063_j35150012350919_1_alg».proof.Proof.Gen.Kernel
import proofs.«164063_j35150012350919_1_alg».proof.Proof.Gen.Kernel.Skeleton
import proofs.«164063_j35150012350919_1_alg».proof.Proof.Gen.Kernel.Launch
import proofs.«164063_j35150012350919_1_alg».proof.Proof.Gen.Kernel.Points
import proofs.«164063_j35150012350919_1_alg».proof.Proof.Gen.Kernel.Frame
import proofs.«164063_j35150012350919_1_alg».proof.Proof.Gen.KernelIdeal
import proofs.«164063_j35150012350919_1_alg».proof.Proof.Gen.KernelIdeal.Skeleton
import proofs.«164063_j35150012350919_1_alg».proof.Proof.Gen.KernelIdeal.Launch
import proofs.«164063_j35150012350919_1_alg».proof.Proof.Gen.KernelIdeal.Points
import proofs.«164063_j35150012350919_1_alg».proof.Proof.Gen.KernelIdeal.Frame
import proofs.«164063_j35150012350919_1_alg».proof.Proof.Gen.ReferenceIdeal
import proofs.«164063_j35150012350919_1_alg».proof.Proof.Gen.Pre_finite_inputs
import proofs.«164063_j35150012350919_1_alg».proof.Proof.Gen.KernelIdeal.Value
import proofs.«164063_j35150012350919_1_alg».proof.Proof.Gen.ReferenceIdeal.Run
import proofs.«164063_j35150012350919_1_alg».proof.Proof.Gen.ReferenceIdeal.Read
import proofs.«164063_j35150012350919_1_alg».proof.Proof.KernelExpect
import proofs.«164063_j35150012350919_1_alg».proof.Proof.RefExpect
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the expectation of the (agreeing) argument arrays in their result. -/
theorem algebraic : Cert.algebraic_KernelIdeal_ReferenceIdeal := by
  intro m ρ m' ρ' _ hagree
  refine ⟨fun c => Cert.KernelIdeal.Expect.goal m c, Cert.KernelIdeal.Expect.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.Expect.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
